-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Steps.lean ====
/-
  What one grid step leaves behind, case by case.

  The body keeps a running [512, 1024] accumulator in a scratch buffer.  At the first step of a run along the
  contraction axis it stores zeros there; at every step it reads the accumulator back, adds the product of the data block
  with the masked weight block, and stores the sum; at the last step it also reads the new accumulator, adds the bias
  row to every row, and stores that as the output block.  Each statement below says which pure term of the loaded
  blocks a case leaves in the accumulator or in the output block.
-/
import proofs.«149260_j45853070852650_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- First step of a run: the accumulator is zeroed, read back, and ends at zero plus this step's product. -/
theorem acc_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S1024x1024 .f32) (x2 : Vec F S1024x1024 .f32) (x3 : Vec F S1x1024 .f32) :
    sout0_A_0 c i arg3 harg3 arg4 harg4 arg5 harg5 arg6 harg6 arg7 harg7 arg8 harg8 hc0 hc1 x0 x1 x2 x3 = k0_pay2 x2 x1 x0 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz]
  simp only [View.readAt_eq_ld, harg3.read_unread, harg4.read_unread, harg5.read_unread,
    View.ld_unit_zero (S := S512x1024) hz, View.ld_unit_zero (S := S1024x1024) hz,
    View.readCov_unit_zero (S := S512x1024) _ hz]

/-- A middle step: the accumulator `xs0` the step before left, plus this step's product. -/
theorem acc_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S1024x1024 .f32) (x2 : Vec F S1024x1024 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x2 x1 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S512x1024) hz]
  simp only [View.readAt_eq_ld, harg3.read_unread, harg4.read_unread, harg5.read_unread, harg8.read_unread,
    View.ld_unit_zero (S := S512x1024) hz, View.ld_unit_zero (S := S1024x1024) hz]

/-- The last step leaves the same in the accumulator, -/
theorem acc_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x2 x1 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x1024) hz]
  simp only [View.readAt_eq_ld, harg3.read_unread, harg4.read_unread, harg5.read_unread, harg8.read_unread,
    View.ld_unit_zero (S := S512x1024) hz, View.ld_unit_zero (S := S1024x1024) hz]

/-- and in the output block that new accumulator plus the bias row. -/
theorem out_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay3 (k0_pay2 x2 x1 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x1024) hz]
  simp only [View.readAt_eq_ld, harg3.read_unread, harg4.read_unread, harg5.read_unread, harg6.read_unread,
    harg8.read_unread, View.ld_unit_zero (S := S512x1024) hz, View.ld_unit_zero (S := S1024x1024) hz,
    View.ld_unit_zero (S := S1x1024) hz, View.readCov_unit_zero (S := S512x1024) _ hz]

end Cert.KernelIdeal.Steps

end
-- ==== Proof.Fold.lean ====
/-
  The accumulator and the output block after each grid point, as the body's stored values of the point's blocks.

  Points are visited in order, the contraction block `t % 4` moving fastest.  After a point that starts a run
  (`t % 4 = 0`) the accumulator is the accumulated value over the reset value; after any other point it is the accumulated
  value over what the point before left; and after a point that ends a run (`t % 4 = 3`) the output block is the output
  value of that new accumulator and the bias block.
-/
import proofs.«149260_j45853070852650_1_alg».proof.Proof.Steps

noncomputable section

open Idealize.ShloMosaic Idealize.ShloMosaic.TcCoe Idealize.SL.Sem

namespace Cert.KernelIdeal.Fold

open Cert.KernelIdeal Cert.KernelIdeal.Gen Cert.KernelIdeal.Steps

variable {F : FTy → Type} [FloatOps F]
variable (m : (ℓ : Loc nD τ sig) → Buf (Elt F) ℓ)

/-- The four input blocks at a point, and the accumulator after a point, at their literal types. -/
abbrev dataBlk (c : Dev nD) (t : Fin cfg0.N) : Vec F S512x1024 .f32 := iblk m c 0 t
abbrev weightBlk (c : Dev nD) (t : Fin cfg0.N) : Vec F S1024x1024 .f32 := iblk m c 1 t
abbrev maskBlk (c : Dev nD) (t : Fin cfg0.N) : Vec F S1024x1024 .f32 := iblk m c 2 t
abbrev biasBlk (c : Dev nD) (t : Fin cfg0.N) : Vec F S1x1024 .f32 := iblk m c 3 t
abbrev accAfter (c : Dev nD) (n : ℕ) (h : n < cfg0.N) : Vec F S512x1024 .f32 := (outsAt0 m c n h).2
abbrev outAfter (c : Dev nD) (n : ℕ) (h : n < cfg0.N) : Vec F S512x1024 .f32 := (outsAt0 m c n h).1

/-- After a point that starts a run. -/
theorem acc_at_first (c : Dev nD) (t : Fin cfg0.N) (h0 : t.val % 4 = 0) :
    accAfter m c t.val t.isLt = k0_pay2 (maskBlk m c t) (weightBlk m c t) (dataBlk m c t) k0_pay1 := by
  have h1 : ¬t.val % 4 = 3 := by omega
  show (outsAt0 m c t.val t.isLt).2 = _
  rw [outsAt0_A m c t h0 h1]
  dsimp only
  exact acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After any other point. -/
theorem acc_at_later (c : Dev nD) (t : Fin cfg0.N) (h0 : ¬t.val % 4 = 0) :
    accAfter m c t.val t.isLt
      = k0_pay2 (maskBlk m c t) (weightBlk m c t) (dataBlk m c t) (accAfter m c (t.val - 1) (Nat.lt_of_le_of_lt (Nat.sub_le _ _) t.isLt)) := by
  show (outsAt0 m c t.val t.isLt).2 = _
  by_cases h1 : t.val % 4 = 3
  · rw [outsAt0_C m c t h0 h1]
    dsimp only
    exact acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- The output block after a point that ends a run. -/
theorem out_at_last (c : Dev nD) (t : Fin cfg0.N) (h1 : t.val % 4 = 3) :
    outAfter m c t.val t.isLt = k0_pay3 (accAfter m c t.val t.isLt) (biasBlk m c t) := by
  have h0 : ¬t.val % 4 = 0 := by omega
  rw [acc_at_later m c t h0]
  show (outsAt0 m c t.val t.isLt).1 = _
  rw [outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.KernelIdeal.Fold

end
-- ==== Proof.Payloads.lean ====
/-
  The body's three stored values, read at one entry, at the ideal values.

  At the ideal values a change of float format is the identity and the matrix unit's product into a zero accumulator is
  the plain sum over the contracted axis.  So at row `p` and column `q` of a [512, 1024] block:
    the reset value is 0;
    the accumulated value is the old accumulator's entry plus  ∑ k < 1024, data[p, k] · (mask[q, k] · weight[q, k]);
    the output value is the accumulator's entry plus the bias row's entry at column `q`.
-/
import proofs.«149260_j45853070852650_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Payloads

open Cert.KernelIdeal Cert.KernelIdeal.Gen

/-! ### Which operand entries the block product reads -/

theorem lhs_blk_0 (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_blk_1 (i : S512x1024.Idx) (k : dot_S512x1024_S1024x1024_S512x1024_1_1_0_0_n_n.contr.Idx) :
    (dot_S512x1024_S1024x1024_S512x1024_1_1_0_0_n_n.lhsIdx i k 1).val = (k ⟨0, by decide⟩).val :=
  dot_S512x1024_S1024x1024_S512x1024_1_1_0_0_n_n.lhsIdx_val_of_single rfl i k
theorem rhs_blk_0 (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_blk_1 (i : S512x1024.Idx) (k : dot_S512x1024_S1024x1024_S512x1024_1_1_0_0_n_n.contr.Idx) :
    (dot_S512x1024_S1024x1024_S512x1024_1_1_0_0_n_n.rhsIdx i k 1).val = (k ⟨0, by decide⟩).val :=
  dot_S512x1024_S1024x1024_S512x1024_1_1_0_0_n_n.rhsIdx_val_of_single rfl i k

/-- The block product into a zero accumulator, at (p, q): both operands are contracted along their LAST axis, so it is
    the sum over `k` of `a[p, k] · b[q, k]`. -/
theorem matmul_blk {φ₁ φ₂ : FTy} (a : FVec Ideal S512x1024 φ₁) (b : FVec Ideal S1024x1024 φ₂) (p : Fin 512) (q : Fin 1024) :
    FloatOps.matmul dot_S512x1024_S1024x1024_S512x1024_1_1_0_0_n_n none a b (constant (F := Ideal) S512x1024 .f32 0x00000000#32) (ix2 p q)
      = ∑ k : Fin 1024, a (ix2 p k) * b (ix2 q k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact lhs_blk_0 _ _
    | ⟨1, _⟩ => exact (lhs_blk_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact rhs_blk_0 _ _
    | ⟨1, _⟩ => exact (rhs_blk_1 _ _).trans hk)
  rw [el, er]

/-! ### The three stored values -/

/-- The reset value is zero everywhere. -/
theorem reset_apply (j : S512x1024.Idx) : k0_pay1 (F := Ideal) j = 0 := by
  unfold k0_pay1
  simp only [shapeCast_self]
  exact Ideal.ofBits_zero_f32

/-- The accumulated value: the old entry plus this block's part of the contraction. -/
theorem accum_apply (v3 v4 : Vec Ideal S1024x1024 .f32) (v7 v9 : Vec Ideal S512x1024 .f32) (p : Fin 512) (q : Fin 1024) :
    k0_pay2 (F := Ideal) v3 v4 v7 v9 (ix2 p q)
      = v9 (ix2 p q) + ∑ k : Fin 1024, v7 (ix2 p k) * (v3 (ix2 q k) * v4 (ix2 q k)) := by
  unfold k0_pay2
  simp only [shapeCast_self]
  refine (congrArg (v9 (ix2 p q) + ·) (matmul_blk _ _ p q)).trans ?_
  rfl

/-- The output value: the accumulator's entry plus the bias row's entry in the same column. -/
theorem output_apply (v18 : Vec Ideal S512x1024 .f32) (v19 : Vec Ideal S1x1024 .f32) (p : Fin 512) (q : Fin 1024) :
    k0_pay3 (F := Ideal) v18 v19 (ix2 p q) = v18 (ix2 p q) + v19 (ix2 0 q) := by
  unfold k0_pay3
  simp only [shapeCast_self]
  refine congrArg (v18 (ix2 p q) + ·) ?_
  exact broadcastTo_apply _ broadcasts_S1x1024_S512x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

end Cert.KernelIdeal.Payloads

end
-- ==== Proof.Blocks.lean ====
/-
  Which entries of the argument arrays each block holds.

  The grid has 16 × 4 × 4 points, the last coordinate moving fastest, so point `t` is row block `t / 16`, column block
  `t / 4 % 4` and contraction block `t % 4`.  There the data window holds rows `512·(t/16) …` and contraction columns
  `1024·(t%4) …` of the data; the weight and mask windows hold rows `1024·(t/4%4) …` (the result's columns) and the same
  contraction columns of the weight and of the mask; the bias window holds entries `1024·(t/4%4) …` of the bias, which the
  program first lays out as one row of 4096; and the output window covers rows `512·(t/16) …`, columns `1024·(t/4%4) …` of
  the result.
-/
import proofs.«149260_j45853070852650_1_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The five index maps at point `t`, as quotients and remainders of `t`: decided over the 256 points. -/
theorem idx_facts : ∀ t : Fin cfg0.N,
    win0_0.index t 0 = t.val / 16 ∧ win0_0.index t 1 = t.val % 4
    ∧ win0_1.index t 0 = t.val / 4 % 4 ∧ win0_1.index t 1 = t.val % 4
    ∧ win0_2.index t 0 = t.val / 4 % 4 ∧ win0_2.index t 1 = t.val % 4
    ∧ win0_3.index t 0 = 0 ∧ win0_3.index t 1 = t.val / 4 % 4
    ∧ win0_4.index t 0 = t.val / 16 ∧ win0_4.index t 1 = t.val / 4 % 4 :=
  (by decide +kernel : ∀ t : Fin grid0.N,
    win0_0.index t 0 = t.val / 16 ∧ win0_0.index t 1 = t.val % 4
    ∧ win0_1.index t 0 = t.val / 4 % 4 ∧ win0_1.index t 1 = t.val % 4
    ∧ win0_2.index t 0 = t.val / 4 % 4 ∧ win0_2.index t 1 = t.val % 4
    ∧ win0_3.index t 0 = 0 ∧ win0_3.index t 1 = t.val / 4 % 4
    ∧ win0_4.index t 0 = t.val / 16 ∧ win0_4.index t 1 = t.val / 4 % 4)

/-- The data block's entry (p, k) is the data's entry at row `512·(t/16) + p`, column `1024·(t%4) + k`. -/
theorem data_blk (c : Dev nD) (t : Fin cfg0.N) (p : Fin 512) (k : Fin 1024) (r : Fin 8192) (q : Fin 4096)
    (hr : r.val = 512 * (t.val / 16) + p.val) (hq : q.val = 1024 * (t.val % 4) + k.val) :
    (iblk m c 0 t : Vec F S512x1024 .f32) (ix2 p k) = (m ((c : Thread nD τ).loc main_arg0) : Vec F S8192x4096 .f32) (ix2 r q) := by
  rw [← V_main_arg0 m c]
  unfold iblk
  rw [View.read_apply]
  show V m c main_arg0 _ = V m c main_arg0 _
  refine congrArg _ (funext fun a => Fin.ext ?_)
  match a with
  | ⟨0, _⟩ => show win0_0.index t 0 * 512 + 1 * p.val = r.val; rw [(idx_facts t).1, hr]; omega
  | ⟨1, _⟩ => show win0_0.index t 1 * 1024 + 1 * k.val = q.val; rw [(idx_facts t).2.1, hq]; omega

/-- The weight block's entry (n, k) is the weight's entry at row `1024·(t/4%4) + n`, column `1024·(t%4) + k`. -/
theorem weight_blk (c : Dev nD) (t : Fin cfg0.N) (n : Fin 1024) (k : Fin 1024) (r : Fin 4096) (q : Fin 4096)
    (hr : r.val = 1024 * (t.val / 4 % 4) + n.val) (hq : q.val = 1024 * (t.val % 4) + k.val) :
    (iblk m c 1 t : Vec F S1024x1024 .f32) (ix2 n k) = (m ((c : Thread nD τ).loc main_arg1) : Vec F S4096x4096 .f32) (ix2 r q) := by
  rw [← V_main_arg1 m c]
  unfold iblk
  rw [View.read_apply]
  show V m c main_arg1 _ = V m c main_arg1 _
  refine congrArg _ (funext fun a => Fin.ext ?_)
  match a with
  | ⟨0, _⟩ => show win0_1.index t 0 * 1024 + 1 * n.val = r.val; rw [(idx_facts t).2.2.1, hr]; omega
  | ⟨1, _⟩ => show win0_1.index t 1 * 1024 + 1 * k.val = q.val; rw [(idx_facts t).2.2.2.1, hq]; omega

/-- The mask block's entry (n, k) is the mask's entry at the same place. -/
theorem mask_blk (c : Dev nD) (t : Fin cfg0.N) (n : Fin 1024) (k : Fin 1024) (r : Fin 4096) (q : Fin 4096)
    (hr : r.val = 1024 * (t.val / 4 % 4) + n.val) (hq : q.val = 1024 * (t.val % 4) + k.val) :
    (iblk m c 2 t : Vec F S1024x1024 .f32) (ix2 n k) = (m ((c : Thread nD τ).loc main_arg2) : Vec F S4096x4096 .f32) (ix2 r q) := by
  rw [← V_main_arg2 m c]
  unfold iblk
  rw [View.read_apply]
  show V m c main_arg2 _ = V m c main_arg2 _
  refine congrArg _ (funext fun a => Fin.ext ?_)
  match a with
  | ⟨0, _⟩ => show win0_2.index t 0 * 1024 + 1 * n.val = r.val; rw [(idx_facts t).2.2.2.2.1, hr]; omega
  | ⟨1, _⟩ => show win0_2.index t 1 * 1024 + 1 * k.val = q.val; rw [(idx_facts t).2.2.2.2.2.1, hq]; omega

/-- The one-row array the bias window stages is the bias laid out as [1, 4096]. -/
theorem bias_row (c : Dev nD) :
    (V m c main_v0 : Vec F S1x4096 .f32) = shapeCast S1x4096 (m ((c : Thread nD τ).loc main_arg3) : Vec F S4096 .f32) shapeCasts_S4096_S1x4096 := by
  dsimp only [V, hostOps0]
  after_results
  rfl

/-- The bias block's entry (0, n) is the bias's entry `1024·(t/4%4) + n`. -/
theorem bias_blk (c : Dev nD) (t : Fin cfg0.N) (n : Fin 1024) (r : Fin 4096)
    (hr : r.val = 1024 * (t.val / 4 % 4) + n.val) :
    (iblk m c 3 t : Vec F S1x1024 .f32) (ix2 0 n) = (m ((c : Thread nD τ).loc main_arg3) : Vec F S4096 .f32) (ix1 r) := by
  have e : (iblk m c 3 t : Vec F S1x1024 .f32) (ix2 0 n) = (V m c main_v0 : Vec F S1x4096 .f32) (ix2 0 r) := by
    unfold iblk
    rw [View.read_apply]
    show V m c main_v0 _ = V m c main_v0 _
    refine congrArg _ (funext fun a => Fin.ext ?_)
    match a with
    | ⟨0, _⟩ => show win0_3.index t 0 * 1 + 1 * 0 = 0; rw [(idx_facts t).2.2.2.2.2.2.1]
    | ⟨1, _⟩ => show win0_3.index t 1 * 1024 + 1 * n.val = r.val; rw [(idx_facts t).2.2.2.2.2.2.2.1, hr]; omega
  rw [e, bias_row m c]
  exact shapeCast_apply _ _ (ix2 0 r) (ix1 r) (by rw [Shape.rowMajor_val_one, Shape.rowMajor_val_two]; show r.val = 0 * 4096 + r.val; omega)

end Cert.KernelIdeal.Blocks

end
-- ==== Proof.Spec.lean ====
/-
  The mathematics of a masked linear layer, stated without either program.

  With `D` the [8192, 4096] data, `W` and `M` the [4096, 4096] weight and mask, and `B` the [4096] bias, the result at
  row `r` and column `c` is   (∑ q < 4096, D[r, q] · (M[c, q] · W[c, q])) + B[c].

  The kernel does not form this sum at once: it adds it up in four stretches of 1024 consecutive values of `q`, starting
  from zero.  `psum … n` is the sum of the first `n` products; adding one stretch of 1024 products to `psum … n` gives
  `psum … (n + 1024)` (`psum_add_block`), and `psum … 4096` is the whole contraction (`psum_full`).  Both facts are
  regroupings of a finite sum in a commutative monoid, so they hold for all extended reals, infinite ones included.
-/
import Idealize.ShloMosaic.PureOps.Ideal
import Idealize.ShloMosaic.Lib.ValueIdx
import Mathlib.Data.Fintype.BigOperators
import Mathlib.Algebra.BigOperators.Group.Finset.Basic

noncomputable section

namespace Cert.MaskedLinear

open Idealize.ShloMosaic Idealize.ShloMosaic.ValueIdx

/-- The data's and the result's shape, the weight's and mask's, and the bias's. -/
abbrev SRows : Shape := ⟨2, ![8192, 4096]⟩
abbrev SWeight : Shape := ⟨2, ![4096, 4096]⟩
abbrev SBias : Shape := ⟨1, ![4096]⟩

variable (D : SRows.Idx → EReal) (W M : SWeight.Idx → EReal) (B : SBias.Idx → EReal)

/-- The `q`-th product of the contraction for result row `r` and column `c`, at natural-number coordinates (zero where a
    coordinate is outside its array, which no sum below reaches). -/
def term (r c q : ℕ) : EReal :=
  if h : r < 8192 ∧ c < 4096 ∧ q < 4096 then
    D (ix2 ⟨r, h.1⟩ ⟨q, h.2.2⟩) * (M (ix2 ⟨c, h.2.1⟩ ⟨q, h.2.2⟩) * W (ix2 ⟨c, h.2.1⟩ ⟨q, h.2.2⟩))
  else 0

/-- Inside the arrays the product is the entries' product. -/
theorem term_eq (r : Fin 8192) (c : Fin 4096) (q : Fin 4096) :
    term D W M r.val c.val q.val = D (ix2 r q) * (M (ix2 c q) * W (ix2 c q)) := by
  unfold term
  rw [dif_pos ⟨r.isLt, c.isLt, q.isLt⟩]

/-- The sum of the first `n` products. -/
def psum (r c n : ℕ) : EReal := ∑ q ∈ Finset.range n, term D W M r c q

/-- No product summed: zero. -/
theorem psum_zero (r c : ℕ) : psum D W M r c 0 = 0 := Finset.sum_range_zero _

/-- One more stretch of 1024 products. -/
theorem psum_add_block (r c n : ℕ) :
    psum D W M r c (n + 1024) = psum D W M r c n + ∑ k : Fin 1024, term D W M r c (n + k.val) := by
  unfold psum
  rw [Finset.sum_range_add, Fin.sum_univ_eq_sum_range (fun x => term D W M r c (n + x))]

/-- All 4096 products: the contraction over the shared axis. -/
theorem psum_full (r : Fin 8192) (c : Fin 4096) :
    psum D W M r.val c.val 4096 = ∑ q : Fin 4096, D (ix2 r q) * (M (ix2 c q) * W (ix2 c q)) := by
  unfold psum
  rw [← Fin.sum_univ_eq_sum_range (fun q => term D W M r.val c.val q) 4096]
  exact Finset.sum_congr rfl fun q _ => term_eq D W M r c q

/-- The layer's result: the whole contraction plus the column's bias. -/
def G : SRows.Idx → EReal := fun j => psum D W M (j 0).val (j 1).val 4096 + B (ix1 (j 1))

theorem G_apply (r : Fin 8192) (c : Fin 4096) :
    G D W M B (ix2 r c) = (∑ q : Fin 4096, D (ix2 r q) * (M (ix2 c q) * W (ix2 c q))) + B (ix1 c) := by
  unfold G
  rw [← psum_full D W M r c]

end Cert.MaskedLinear

end
-- ==== Proof.Result.lean ====
/-
  The idealized kernel's result array is the layer's result.

  Write r = 512·(t/16) + p and c = 1024·(t/4%4) + q for the result entry that entry (p, q) of point `t`'s blocks belongs
  to.  By induction over the points, after point `t` the accumulator's entry (p, q) is the sum of the first
  `1024·(t%4) + 1024` products of the contraction for (r, c): a point that starts a run adds its 1024 products to zero, any
  other point adds its 1024 products to what the point before left, and the point before belongs to the same r and c and
  had summed `1024·(t%4)` products.  At a point that ends a run all 4096 products are in, the output block's entry is that
  sum plus `bias[c]`, and the pipeline writes the block back to rows `512·(t/16) …`, columns `1024·(t/4%4) …` of the
  result.  Those blocks tile the result, so the array ends at the specification's `G`.
-/
import proofs.«149260_j45853070852650_1_alg».proof.Proof.Fold
import proofs.«149260_j45853070852650_1_alg».proof.Proof.Payloads
import proofs.«149260_j45853070852650_1_alg».proof.Proof.Blocks
import proofs.«149260_j45853070852650_1_alg».proof.Proof.Spec
import proofs.«149260_j45853070852650_1_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Fold Cert.MaskedLinear

variable (m : (ℓ : Loc nD τ sig) → Buf (Elt Ideal) ℓ) (ρ : Dev nD → PrngReg)

/-- The four argument arrays as extended-real functions of their indices. -/
abbrev dataA (c : Dev nD) : SRows.Idx → EReal := m ((c : Thread nD τ).loc main_arg0)
abbrev weightA (c : Dev nD) : SWeight.Idx → EReal := m ((c : Thread nD τ).loc main_arg1)
abbrev maskA (c : Dev nD) : SWeight.Idx → EReal := m ((c : Thread nD τ).loc main_arg2)
abbrev biasA (c : Dev nD) : SBias.Idx → EReal := m ((c : Thread nD τ).loc main_arg3)

/-- The specification's result of this memory's arguments. -/
abbrev result (c : Dev nD) : SRows.Idx → EReal := G (dataA m c) (weightA m c) (maskA m c) (biasA m c)

/-- Partial sums at equal coordinates are equal. -/
theorem psum_congr (D : SRows.Idx → EReal) (W M : SWeight.Idx → EReal) {r r' c c' n n' : ℕ} (hr : r = r') (hc : c = c') (hn : n = n') :
    psum D W M r c n = psum D W M r' c' n' := by subst hr hc hn; rfl

/-- The 1024 products point `n` adds at entry (p, q) are products number `1024·(n%4) …` of the contraction for its result
    entry. -/
theorem step_sum (c : Dev nD) (n : ℕ) (h : n < cfg0.N) (p : Fin 512) (q : Fin 1024) :
    ∑ k : Fin 1024, dataBlk m c ⟨n, h⟩ (ix2 p k) * (maskBlk m c ⟨n, h⟩ (ix2 q k) * weightBlk m c ⟨n, h⟩ (ix2 q k))
      = ∑ k : Fin 1024, term (dataA m c) (weightA m c) (maskA m c) (512 * (n / 16) + p.val) (1024 * (n / 4 % 4) + q.val) (1024 * (n % 4) + k.val) := by
  have hn : n < 256 := lt_of_lt_of_eq h N_0
  refine Finset.sum_congr rfl fun k _ => ?_
  have hr : 512 * (n / 16) + p.val < 8192 := by have := p.isLt; omega
  have hc : 1024 * (n / 4 % 4) + q.val < 4096 := by have := q.isLt; omega
  have hq : 1024 * (n % 4) + k.val < 4096 := by have := k.isLt; omega
  have e1 : dataBlk m c ⟨n, h⟩ (ix2 p k) = dataA m c (ix2 ⟨_, hr⟩ ⟨_, hq⟩) := Blocks.data_blk m c ⟨n, h⟩ p k ⟨_, hr⟩ ⟨_, hq⟩ rfl rfl
  have e2 : maskBlk m c ⟨n, h⟩ (ix2 q k) = maskA m c (ix2 ⟨_, hc⟩ ⟨_, hq⟩) := Blocks.mask_blk m c ⟨n, h⟩ q k ⟨_, hc⟩ ⟨_, hq⟩ rfl rfl
  have e3 : weightBlk m c ⟨n, h⟩ (ix2 q k) = weightA m c (ix2 ⟨_, hc⟩ ⟨_, hq⟩) := Blocks.weight_blk m c ⟨n, h⟩ q k ⟨_, hc⟩ ⟨_, hq⟩ rfl rfl
  rw [e1, e2, e3]
  exact (term_eq (dataA m c) (weightA m c) (maskA m c) ⟨_, hr⟩ ⟨_, hc⟩ ⟨_, hq⟩).symm

/-- The accumulator after a point that starts a run: its first 1024 products. -/
theorem acc_value_first (c : Dev nD) (n : ℕ) (h : n < cfg0.N) (h0 : n % 4 = 0) (p : Fin 512) (q : Fin 1024) :
    accAfter m c n h (ix2 p q)
      = psum (dataA m c) (weightA m c) (maskA m c) (512 * (n / 16) + p.val) (1024 * (n / 4 % 4) + q.val) (1024 * (n % 4) + 1024) := by
  refine (congrFun (acc_at_first m c ⟨n, h⟩ h0) (ix2 p q)).trans ?_
  refine (Payloads.accum_apply (maskBlk m c ⟨n, h⟩) (weightBlk m c ⟨n, h⟩) (dataBlk m c ⟨n, h⟩) (k0_pay1 (F := Ideal)) p q).trans ?_
  rw [Payloads.reset_apply, zero_add, step_sum m c n h p q, psum_add_block, h0, Nat.mul_zero, psum_zero, zero_add]

/-- The accumulator after ANY point: the first `1024·(n%4) + 1024` products for its result entry. -/
theorem acc_value (c : Dev nD) : ∀ (n : ℕ) (h : n < cfg0.N) (p : Fin 512) (q : Fin 1024),
    accAfter m c n h (ix2 p q)
      = psum (dataA m c) (weightA m c) (maskA m c) (512 * (n / 16) + p.val) (1024 * (n / 4 % 4) + q.val) (1024 * (n % 4) + 1024) := by
  intro n
  induction n with
  | zero => intro h p q; exact acc_value_first m c 0 h rfl p q
  | succ n ih =>
    intro h p q
    by_cases h0 : (n + 1) % 4 = 0
    · exact acc_value_first m c (n + 1) h h0 p q
    · have hn : n + 1 < 256 := lt_of_lt_of_eq h N_0
      refine (congrFun (acc_at_later m c ⟨n + 1, h⟩ h0) (ix2 p q)).trans ?_
      refine (Payloads.accum_apply (maskBlk m c ⟨n + 1, h⟩) (weightBlk m c ⟨n + 1, h⟩) (dataBlk m c ⟨n + 1, h⟩)
        (accAfter m c n (Nat.lt_of_succ_lt h)) p q).trans ?_
      have e : psum (dataA m c) (weightA m c) (maskA m c) (512 * (n / 16) + p.val) (1024 * (n / 4 % 4) + q.val) (1024 * (n % 4) + 1024)
          = psum (dataA m c) (weightA m c) (maskA m c) (512 * ((n + 1) / 16) + p.val) (1024 * ((n + 1) / 4 % 4) + q.val) (1024 * ((n + 1) % 4)) :=
        psum_congr _ _ _ (by omega) (by omega) (by omega)
      rw [ih (Nat.lt_of_succ_lt h) p q, e, step_sum m c (n + 1) h p q, psum_add_block]

/-- The output block after a point that ends a run: the whole contraction plus the bias, at its result entry. -/
theorem out_value (c : Dev nD) (n : ℕ) (h : n < cfg0.N) (h1 : n % 4 = 3) (p : Fin 512) (q : Fin 1024)
    (r : Fin 8192) (cc : Fin 4096) (hr : r.val = 512 * (n / 16) + p.val) (hc : cc.val = 1024 * (n / 4 % 4) + q.val) :
    outAfter m c n h (ix2 p q) = result m c (ix2 r cc) := by
  refine (congrFun (out_at_last m c ⟨n, h⟩ h1) (ix2 p q)).trans ?_
  refine (Payloads.output_apply (accAfter m c n h) (biasBlk m c ⟨n, h⟩) p q).trans ?_
  have eb : biasBlk m c ⟨n, h⟩ (ix2 0 q) = biasA m c (ix1 cc) := Blocks.bias_blk m c ⟨n, h⟩ q cc hc
  have e : psum (dataA m c) (weightA m c) (maskA m c) (512 * (n / 16) + p.val) (1024 * (n / 4 % 4) + q.val) (1024 * (n % 4) + 1024)
      = psum (dataA m c) (weightA m c) (maskA m c) r.val cc.val 4096 :=
    psum_congr _ _ _ hr.symm hc.symm (by omega)
  rw [acc_value m c n h p q, eb, e]
  rfl

/-- An index of the result is in point `t`'s output block iff each coordinate is in the block's range. -/
theorem mem_blk (t : Fin cfg0.N) (i : S8192x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1).slice (win0_4.rect t)).set ↔ _
  rw [View.set_slice_whole, Rect.mem_set_unit]
  exact Iff.rfl

/-- What a point that writes back writes is its block of the layer's result. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  have hn : t.val < 256 := lt_of_lt_of_eq t.isLt N_0
  have key : ∀ y : S512x1024.Idx, outAfter m c t.val t.isLt y = result m c (((cfg0.win 4).blk t).view.emb y) := by
    intro y
    obtain ⟨p, q, rfl⟩ : ∃ (p : Fin 512) (q : Fin 1024), y = ix2 p q := ⟨y 0, y 1, eq_ix2 y⟩
    have hr : 512 * (t.val / 16) + p.val < 8192 := by have := p.isLt; omega
    have hc : 1024 * (t.val / 4 % 4) + q.val < 4096 := by have := q.isLt; omega
    rw [out_value m c t.val t.isLt h1 p q ⟨_, hr⟩ ⟨_, hc⟩ rfl rfl]
    refine congrArg _ (funext fun a => Fin.ext ?_)
    match a with
    | ⟨0, _⟩ => show 512 * (t.val / 16) + p.val = win0_4.index t 0 * 512 + 1 * p.val; rw [(Blocks.idx_facts t).2.2.2.2.2.2.2.2.1]; omega
    | ⟨1, _⟩ => show 1024 * (t.val / 4 % 4) + q.val = win0_4.index t 1 * 1024 + 1 * q.val; rw [(Blocks.idx_facts t).2.2.2.2.2.2.2.2.2]; omega
  rw [Value.flushed4]
  funext y
  exact key y

/-- Every entry of the result is in the output block of the point that ends its run. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have ht : ((i 0).val / 512 * 4 + (i 1).val / 1024) * 4 + 3 < cfg0.N := by rw [show cfg0.N = 256 from N_0]; omega
  refine ⟨⟨_, ht⟩, (flush0_4 _).mpr (by show (((i 0).val / 512 * 4 + (i 1).val / 1024) * 4 + 3) % 4 = 3; omega), ?_⟩
  rw [mem_blk]
  intro a
  match a with
  | ⟨0, _⟩ =>
    show win0_4.index ⟨_, ht⟩ 0 * 512 ≤ (i 0).val ∧ (i 0).val < win0_4.index ⟨_, ht⟩ 0 * 512 + 512
    rw [(Blocks.idx_facts ⟨_, ht⟩).2.2.2.2.2.2.2.2.1]
    show (((i 0).val / 512 * 4 + (i 1).val / 1024) * 4 + 3) / 16 * 512 ≤ (i 0).val ∧ (i 0).val < (((i 0).val / 512 * 4 + (i 1).val / 1024) * 4 + 3) / 16 * 512 + 512
    omega
  | ⟨1, _⟩ =>
    show win0_4.index ⟨_, ht⟩ 1 * 1024 ≤ (i 1).val ∧ (i 1).val < win0_4.index ⟨_, ht⟩ 1 * 1024 + 1024
    rw [(Blocks.idx_facts ⟨_, ht⟩).2.2.2.2.2.2.2.2.2]
    show (((i 0).val / 512 * 4 + (i 1).val / 1024) * 4 + 3) / 4 % 4 * 1024 ≤ (i 1).val ∧ (i 1).val < (((i 0).val / 512 * 4 + (i 1).val / 1024) * 4 + 3) / 4 % 4 * 1024 + 1024
    omega

/-- So the result array ends holding the layer's result. -/
theorem final (c : Dev nD) : (dats m 0 c).arrAt 4 cfg0.N = result m c :=
  (dats m 0 c).arrAt_eq_of_cover 4 (result m c) (flushed_eq m c) cover

/-- The run: the result array at the layer's result, the four arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefIsSpec.lean ====
/-
  The reference computes the layer's result.

  The reference forms `mask · weight` entry by entry, contracts the data's and that product's last axes in one
  `dot_general`, and adds the bias broadcast along the rows.  Read at row `r` and column `c` this is the sum over all 4096
  values of `q` of `data[r, q] · (mask[c, q] · weight[c, q])`, plus `bias[c]`: the specification's `G`, term for term.
-/
import proofs.«149260_j45853070852650_1_alg».proof.Proof.Gen.ReferenceIdeal.Read
import proofs.«149260_j45853070852650_1_alg».proof.Proof.Spec

noncomputable section

namespace Cert.ReferenceIdeal.RefValue

open Cert.ReferenceIdeal Cert.ReferenceIdeal.Read Idealize.ShloMosaic Idealize.ShloMosaic.ValueIdx

/-- The data's entry the contraction reads for result (r, c) at `q` is `data[r, q]`. -/
theorem lidx_eq (r : Fin 8192) (c : Fin 4096) (q : Fin 4096) : lidx_main_v1 (ix2 r c) q = ix2 r q :=
  funext fun a => Fin.ext (by match a with | ⟨0, _⟩ => rfl | ⟨1, _⟩ => rfl)

/-- The masked weight's entry it reads is the one at `[c, q]`. -/
theorem ridx_eq (r : Fin 8192) (c : Fin 4096) (q : Fin 4096) : ridx_main_v1 (ix2 r c) q = ix2 c q :=
  funext fun a => Fin.ext (by match a with | ⟨0, _⟩ => rfl | ⟨1, _⟩ => rfl)

/-- The bias entry the two broadcasts read for result (r, c) is `bias[c]`. -/
theorem bidx_eq (r : Fin 8192) (c : Fin 4096) : idx_main_v2 (idx_main_v3 (ix2 r c)) = ix1 c :=
  funext fun a => Fin.ext (by match a with | ⟨0, _⟩ => rfl)

/-- The reference's result term is `G` of the four arguments. -/
theorem ref_eq (x0 : FVec Ideal S8192x4096 .f32) (x1 x2 : FVec Ideal S4096x4096 .f32) (x3 : FVec Ideal S4096 .f32) :
    val_main_v4 (F := Ideal) x0 x1 x2 x3 = Cert.MaskedLinear.G x0 x1 x2 x3 := by
  funext i
  obtain ⟨r, c, rfl⟩ : ∃ (r : Fin 8192) (c : Fin 4096), i = ix2 r c := ⟨i 0, i 1, eq_ix2 i⟩
  rw [Cert.MaskedLinear.G_apply, val_main_v4_apply, val_main_v1_apply, val_main_v3_apply, val_main_v2_apply, bidx_eq]
  simp only [lidx_eq, ridx_eq, val_main_v0_apply]
  rfl

end Cert.ReferenceIdeal.RefValue

end
-- ==== Proof.lean ====
/-
  A masked linear layer, `out = data · (mask ∘ weight)ᵀ + bias`, computed by a tiled kernel and by one whole contraction.

  The kernel tiles the [8192, 4096] result into [512, 1024] blocks and the shared axis of length 4096 into four stretches
  of 1024.  For each result block it zeroes an accumulator, adds the four partial products `data_blk · (mask_blk ∘
  weight_blk)ᵀ` one after the other, and at the fourth adds the bias row and writes the block out.  The reference forms
  `mask ∘ weight`, contracts all 4096 at once, and adds the broadcast bias.  At the ideal values (changes of float
  format are the identity, the matrix product is the exact sum) both are, at row r and column c,
      (∑ q < 4096, data[r, q] · (mask[c, q] · weight[c, q])) + bias[c]:
  the kernel's four stretches regroup that sum, which is valid for all extended reals because only associativity and
  commutativity of addition are used; finiteness of the inputs is never needed.

  Modules: `Spec` (the sum, its partial sums and their regrouping), `RefIsSpec` (the reference computes it), `Steps` and
  `Fold` (what each grid point leaves in the accumulator and the output block), `Payloads` (those values at one entry),
  `Blocks` (which array entries each block holds), `Result` (the induction over the points and the result array).
  The three frames come from the generated frame runs; nothing was rewritten by the idealization, so `preserves` is `True`.
-/
import proofs.«149260_j45853070852650_1_alg».proof.Defs
import proofs.«149260_j45853070852650_1_alg».proof.Proof.Gen.Kernel
import proofs.«149260_j45853070852650_1_alg».proof.Proof.Gen.Kernel.Skeleton
import proofs.«149260_j45853070852650_1_alg».proof.Proof.Gen.Kernel.Launch
import proofs.«149260_j45853070852650_1_alg».proof.Proof.Gen.Kernel.Points
import proofs.«149260_j45853070852650_1_alg».proof.Proof.Gen.Kernel.Frame
import proofs.«149260_j45853070852650_1_alg».proof.Proof.Gen.KernelIdeal
import proofs.«149260_j45853070852650_1_alg».proof.Proof.Gen.KernelIdeal.Skeleton
import proofs.«149260_j45853070852650_1_alg».proof.Proof.Gen.KernelIdeal.Launch
import proofs.«149260_j45853070852650_1_alg».proof.Proof.Gen.KernelIdeal.Points
import proofs.«149260_j45853070852650_1_alg».proof.Proof.Gen.KernelIdeal.Frame
import proofs.«149260_j45853070852650_1_alg».proof.Proof.Gen.ReferenceIdeal
import proofs.«149260_j45853070852650_1_alg».proof.Proof.Gen.Pre_finite_inputs
import proofs.«149260_j45853070852650_1_alg».proof.Proof.Gen.KernelIdeal.Value
import proofs.«149260_j45853070852650_1_alg».proof.Proof.Gen.ReferenceIdeal.Run
import proofs.«149260_j45853070852650_1_alg».proof.Proof.Gen.ReferenceIdeal.Read
import proofs.«149260_j45853070852650_1_alg».proof.Proof.Result
import proofs.«149260_j45853070852650_1_alg».proof.Proof.RefIsSpec
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer's result of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
